-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S100x64x768 : Shape := ⟨3, ![100, 64, 768]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S100x64x768 : S_.BroadcastsInDim S100x64x768 (![] : Fin 0 → Fin S100x64x768.rank)
  reducesTo_S100x64x768_S_d0_1_2 : S100x64x768.ReducesTo [0, 1, 2] S_

variable [Facts]

def fn {F : FTy → Type} [FloatOps F] (main_arg0 : FVec F S4096x768 .f32) (main_arg1 : FVec F S100x64x768 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S100x64x768 .f32 := Host.absf main_arg1
  let main_cst_0 : FVec F S_ .f32 := constant S_ .f32 0x7F800000#32
  let main_v5 : FVec F S100x64x768 .f32 := broadcastInDim S100x64x768 ![] bcast_S_S100x64x768 main_cst_0
  let main_v6 : IVec S100x64x768 1 := cmpf .olt main_v4 main_v5
  let main_c_1 : IVec S_ 1 := constantI S_ 1 1#1
  let main_v7 : IVec S_ 1 := (fun x v => Host.reduce IntOp.andi x v reducesTo_S100x64x768_S_d0_1_2 h_S_) main_v6 main_c_1
  let main_v8 : IVec S_ 1 := andi main_v3 main_v7
  main_v8
-- ==== Kernel.lean ====
abbrev S4096x768 : Shape := ⟨2, ![4096, 768]⟩
abbrev S100x64x768 : Shape := ⟨3, ![100, 64, 768]⟩
abbrev S6400x768 : Shape := ⟨2, ![6400, 768]⟩
abbrev S4096x6400 : Shape := ⟨2, ![4096, 6400]⟩
abbrev S1024x768 : Shape := ⟨2, ![1024, 768]⟩
abbrev S640x768 : Shape := ⟨2, ![640, 768]⟩
abbrev S1024x640 : Shape := ⟨2, ![1024, 640]⟩
abbrev S1024 : Shape := ⟨1, ![1024]⟩
abbrev S1024x1 : Shape := ⟨2, ![1024, 1]⟩
abbrev S640 : Shape := ⟨1, ![640]⟩
abbrev S640x1 : Shape := ⟨2, ![640, 1]⟩
abbrev S1x640 : Shape := ⟨2, ![1, 640]⟩
abbrev S4096x100x64 : Shape := ⟨3, ![4096, 100, 64]⟩

abbrev nBuf : Space → Nat
  | .hbm => 5
  | .vmem => 6
  | .smem => 0
  | _ => 0

abbrev bufTy : (tb : Table) → Fin (tcTables nBuf tb) → BufTy
  | .hbm, ⟨0, _⟩ => ⟨S4096x768, .f32⟩
  | .hbm, ⟨1, _⟩ => ⟨S100x64x768, .f32⟩
  | .hbm, ⟨2, _⟩ => ⟨S6400x768, .f32⟩
  | .hbm, ⟨3, _⟩ => ⟨S4096x6400, .f32⟩
  | .hbm, ⟨4, _⟩ => ⟨S4096x100x64, .f32⟩
  | .local _ .vmem, ⟨0, _⟩ => ⟨S1024x768, .f32⟩
  | .local _ .vmem, ⟨1, _⟩ => ⟨S1024x768, .f32⟩
  | .local _ .vmem, ⟨2, _⟩ => ⟨S640x768, .f32⟩
  | .local _ .vmem, ⟨3, _⟩ => ⟨S640x768, .f32⟩
  | .local _ .vmem, ⟨4, _⟩ => ⟨S1024x640, .f32⟩
  | .local _ .vmem, ⟨5, _⟩ => ⟨S1024x640, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S100x64x768_S6400x768 : S100x64x768.ShapeCasts S6400x768
  inb_S1024x768_S1024x768_0_0 : ∀ a, (![0, 0] : Fin 2 → Nat) a + S1024x768.size a ≤ S1024x768.size a
  h_S1024x768 : 0 < S1024x768.numel
  inb_S640x768_S640x768_0_0 : ∀ a, (![0, 0] : Fin 2 → Nat) a + S640x768.size a ≤ S640x768.size a
  h_S640x768 : 0 < S640x768.numel
  shapeCasts_S640x768_S640x768 : S640x768.ShapeCasts S640x768
  reduces_S1024x768_S1024 : S1024x768.Reduces [1] S1024
  shapeCasts_S1024_S1024x1 : S1024.ShapeCasts S1024x1
  reduces_S640x768_S640 : S640x768.Reduces [1] S640
  shapeCasts_S640_S640x1 : S640.ShapeCasts S640x1
  bitsLt_bf16_f32 : FTy.bits .bf16 < FTy.bits .f32
  transposes_S640x1_p1_0_S1x640 : S640x1.Transposes [1, 0] S1x640
  broadcasts_S1024x1_S1024x640 : S1024x1.Broadcasts S1024x640
  broadcasts_S1x640_S1024x640 : S1x640.Broadcasts S1024x640
  inb_S1024x640_S1024x640_0_0 : ∀ a, (![0, 0] : Fin 2 → Nat) a + S1024x640.size a ≤ S1024x640.size a
  h_S1024x640 : 0 < S1024x640.numel
  shapeCasts_S4096x6400_S4096x100x64 : S4096x6400.ShapeCasts S4096x100x64
  dot_S1024x768_S640x768_S1024x640_1_1_0_0_n_n_wf : DotDims.WF S1024x768 S640x768 S1024x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .f32 = 32 ∨ (Rect.block (s := S4096x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x768.size a ≤ S6400x768.size a
  hwx0_1 : ∀ i : grid0.Coords, EltTy.bits .f32 = 32 ∨ (Rect.block (s := S6400x768) S640x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x640.size a ≤ S4096x6400.size a
  hwx0_2 : ∀ i : grid0.Coords, EltTy.bits .f32 = 32 ∨ (Rect.block (s := S4096x6400) S1024x640.size (cc0_transform_2 i) (hinb0_2 i)).WholeWords (EltTy.packing .f32)

variable [Facts₀]

def dot_S1024x768_S640x768_S1024x640_1_1_0_0_n_n : DotDims S1024x768 S640x768 S1024x640 where
  lhsContracting := [1]
  rhsContracting := [1]
  lhsNonContracting := [0]
  rhsNonContracting := [0]
  lhsBatch := []
  rhsBatch := []
  wf := dot_S1024x768_S640x768_S1024x640_1_1_0_0_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S640x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x768 : Shape := ⟨2, ![4096, 768]⟩
abbrev S100x64x768 : Shape := ⟨3, ![100, 64, 768]⟩
abbrev S_ : Shape := ⟨0, ![]⟩
abbrev S4096 : Shape := ⟨1, ![4096]⟩
abbrev S100x64 : Shape := ⟨2, ![100, 64]⟩
abbrev S4096x100x64 : Shape := ⟨3, ![4096, 100, 64]⟩
abbrev S4096x1x1 : Shape := ⟨3, ![4096, 1, 1]⟩
abbrev S1x100x64 : Shape := ⟨3, ![1, 100, 64]⟩

abbrev nBuf : Space → Nat
  | .hbm => 22
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S100x64x768, .f32⟩
  | .hbm, ⟨2, _⟩ => ⟨S4096x768, .f32⟩
  | .hbm, ⟨3, _⟩ => ⟨S_, .f32⟩
  | .hbm, ⟨4, _⟩ => ⟨S4096, .f32⟩
  | .hbm, ⟨5, _⟩ => ⟨S100x64x768, .f32⟩
  | .hbm, ⟨6, _⟩ => ⟨S_, .f32⟩
  | .hbm, ⟨7, _⟩ => ⟨S100x64, .f32⟩
  | .hbm, ⟨8, _⟩ => ⟨S4096x100x64, .f32⟩
  | .hbm, ⟨9, _⟩ => ⟨S4096x1x1, .f32⟩
  | .hbm, ⟨10, _⟩ => ⟨S1x100x64, .f32⟩
  | .hbm, ⟨11, _⟩ => ⟨S4096x100x64, .f32⟩
  | .hbm, ⟨12, _⟩ => ⟨S4096x100x64, .f32⟩
  | .hbm, ⟨13, _⟩ => ⟨S4096x100x64, .f32⟩
  | .hbm, ⟨14, _⟩ => ⟨S_, .f32⟩
  | .hbm, ⟨15, _⟩ => ⟨S4096x100x64, .f32⟩
  | .hbm, ⟨16, _⟩ => ⟨S4096x100x64, .f32⟩
  | .hbm, ⟨17, _⟩ => ⟨S4096x100x64, .f32⟩
  | .hbm, ⟨18, _⟩ => ⟨S_, .f32⟩
  | .hbm, ⟨19, _⟩ => ⟨S4096x100x64, .f32⟩
  | .hbm, ⟨20, _⟩ => ⟨S4096x100x64, .f32⟩
  | .hbm, ⟨21, _⟩ => ⟨S4096x100x64, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  reducesTo_S100x64x768_S100x64_d2 : S100x64x768.ReducesTo [2] S100x64
  bcast_S4096_S4096x1x1_0 : S4096.BroadcastsInDim S4096x1x1 (![0] : Fin 1 → Fin S4096x1x1.rank)
  bcast_S100x64_S1x100x64_1_2 : S100x64.BroadcastsInDim S1x100x64 (![1, 2] : Fin 2 → Fin S1x100x64.rank)
  bcast_S4096x1x1_S4096x100x64_0_1_2 : S4096x1x1.BroadcastsInDim S4096x100x64 (![0, 1, 2] : Fin 3 → Fin S4096x100x64.rank)
  bcast_S1x100x64_S4096x100x64_0_1_2 : S1x100x64.BroadcastsInDim S4096x100x64 (![0, 1, 2] : Fin 3 → Fin S4096x100x64.rank)
  bcast_S_S4096x100x64 : S_.BroadcastsInDim S4096x100x64 (![] : Fin 0 → Fin S4096x100x64.rank)
  dot_S4096x768_S100x64x768_S4096x100x64_1_2_0_01_n_n_wf : DotDims.WF S4096x768 S100x64x768 S4096x100x64 [1] [2] [0] [0, 1] [] []

variable [Facts₀]

def dot_S4096x768_S100x64x768_S4096x100x64_1_2_0_01_n_n : DotDims S4096x768 S100x64x768 S4096x100x64 where
  lhsContracting := [1]
  rhsContracting := [2]
  lhsNonContracting := [0]
  rhsNonContracting := [0, 1]
  lhsBatch := []
  rhsBatch := []
  wf := dot_S4096x768_S100x64x768_S4096x100x64_1_2_0_01_n_n_wf

class Facts : Prop extends Facts₀ where

variable [Facts]
-- ==== Proof.Dist.lean ====
/-
  Pairwise Euclidean distances between the rows of two matrices, on the extended reals.

  For a matrix x with rows x_r and a matrix a with rows a_n, 768 columns each, the distance of x_r from a_n is taken
  through the expansion  ‖x_r − a_n‖² = ‖x_r‖² + ‖a_n‖² − 2 ⟨x_r, a_n⟩,  clamped below at zero before the square
  root. The function is stated once for any numbers of rows, so that it reads a tile of the two matrices as well as
  the matrices themselves. Its last part says how it reads when the rows of the second matrix are listed as a
  100 × 64 table and the distances as a [rows, 100, 64] array: row n = 64·c + a of the flat list is entry (c, a) of
  the table, both listings being row-major.
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.PairDist

/-- ‖x_r‖²: the sum over the columns of the squares of row `r`. -/
def rowSq {R : ℕ} (x : (⟨2, ![R, 768]⟩ : Shape).Idx → EReal) (r : Fin R) : EReal :=
  ∑ e : Fin 768, x (ix2 r e) * x (ix2 r e)

/-- ⟨x_r, a_n⟩: the sum over the columns of the products of row `r` of `x` and row `n` of `a`. -/
def rowDot {R N : ℕ} (x : (⟨2, ![R, 768]⟩ : Shape).Idx → EReal) (a : (⟨2, ![N, 768]⟩ : Shape).Idx → EReal)
    (r : Fin R) (n : Fin N) : EReal :=
  ∑ e : Fin 768, x (ix2 r e) * a (ix2 n e)

/-- The distance from the two squared norms `s`, `t` and the inner product `d`: √(max((s + t) − 2·d, 0)). The constants
    2 and 0 stay the f32 words both programs spell them with; neither is ever evaluated. -/
def ofParts (s t d : EReal) : EReal :=
  Ideal.sqrt (max (s + t - Ideal.ofBits .f32 0x40000000#32 * d) (Ideal.ofBits .f32 0x00000000#32))

/-- Every row of `x` against every row of `a`: entry (r, n) is the distance of x_r from a_n. -/
def flat {R N : ℕ} (x : (⟨2, ![R, 768]⟩ : Shape).Idx → EReal) (a : (⟨2, ![N, 768]⟩ : Shape).Idx → EReal) :
    (⟨2, ![R, N]⟩ : Shape).Idx → EReal :=
  fun i => ofParts (rowSq x (i 0)) (rowSq a (i 1)) (rowDot x a (i 0) (i 1))

/-- A tile of the table is the table of the tiles: where row `j 0` of a tile `xb` is row `i 0` of `x` and row `j 1` of a tile
    `ab` is row `i 1` of `a`, the tiles' distance at `j` is the matrices' at `i` — the three sums run over the same entries. -/
theorem flat_of_rows {R N r n : ℕ} (x : (⟨2, ![R, 768]⟩ : Shape).Idx → EReal) (a : (⟨2, ![N, 768]⟩ : Shape).Idx → EReal)
    (xb : (⟨2, ![r, 768]⟩ : Shape).Idx → EReal) (ab : (⟨2, ![n, 768]⟩ : Shape).Idx → EReal)
    (j : (⟨2, ![r, n]⟩ : Shape).Idx) (i : (⟨2, ![R, N]⟩ : Shape).Idx)
    (hx : ∀ e : Fin 768, xb (ix2 (j 0) e) = x (ix2 (i 0) e)) (ha : ∀ e : Fin 768, ab (ix2 (j 1) e) = a (ix2 (i 1) e)) :
    flat xb ab j = flat x a i := by
  show ofParts (rowSq xb (j 0)) (rowSq ab (j 1)) (rowDot xb ab (j 0) (j 1))
    = ofParts (rowSq x (i 0)) (rowSq a (i 1)) (rowDot x a (i 0) (i 1))
  unfold rowSq rowDot
  simp only [hx, ha]

/-- The same with the second matrix's 6400 rows listed as a 100 × 64 table `A`: entry (b, c, a) is the distance of x_b
    from the table's row (c, a). -/
def table (x : (⟨2, ![4096, 768]⟩ : Shape).Idx → EReal) (A : (⟨3, ![100, 64, 768]⟩ : Shape).Idx → EReal) :
    (⟨3, ![4096, 100, 64]⟩ : Shape).Idx → EReal :=
  fun i => ofParts (rowSq x (i 0)) (∑ e : Fin 768, A (ix3 (i 1) (i 2) e) * A (ix3 (i 1) (i 2) e))
    (∑ e : Fin 768, x (ix2 (i 0) e) * A (ix3 (i 1) (i 2) e))

/-- Flattening the table to 6400 rows, taking all distances, and listing them again by (c, a) is the table form: the two
    re-listings are row-major, so position 64·c + a of the flat list is (c, a) of the table, row for row and column for
    column. -/
theorem shapeCast_flat_shapeCast (x : (⟨2, ![4096, 768]⟩ : Shape).Idx → EReal) (A : (⟨3, ![100, 64, 768]⟩ : Shape).Idx → EReal)
    (h₁ : (⟨3, ![100, 64, 768]⟩ : Shape).ShapeCasts ⟨2, ![6400, 768]⟩)
    (h₂ : (⟨2, ![4096, 6400]⟩ : Shape).ShapeCasts ⟨3, ![4096, 100, 64]⟩) :
    shapeCast ⟨3, ![4096, 100, 64]⟩ (flat x (shapeCast ⟨2, ![6400, 768]⟩ A h₁)) h₂ = table x A := by
  funext i
  obtain ⟨b, c, a, rfl⟩ : ∃ (b : Fin 4096) (c : Fin 100) (a : Fin 64), i = ix3 b c a := ⟨i 0, i 1, i 2, eq_ix3 i⟩
  have hn : c.val * 64 + a.val < 6400 := by have := c.isLt; have := a.isLt; omega
  rw [shapeCast_apply _ h₂ (ix3 b c a) (ix2 b (⟨c.val * 64 + a.val, hn⟩ : Fin 6400)) (by
    rw [Shape.rowMajor_val_two, Shape.rowMajor_val_three]
    show b.val * 6400 + (c.val * 64 + a.val) = (b.val * 100 + c.val) * 64 + a.val
    omega)]
  have hrow : ∀ e : Fin 768,
      shapeCast ⟨2, ![6400, 768]⟩ A h₁ (ix2 (⟨c.val * 64 + a.val, hn⟩ : Fin 6400) e) = A (ix3 c a e) := fun e =>
    shapeCast_apply A h₁ _ (ix3 c a e) (by
      rw [Shape.rowMajor_val_three, Shape.rowMajor_val_two]
      show (c.val * 64 + a.val) * 768 + e.val = (c.val * 64 + a.val) * 768 + e.val
      rfl)
  show ofParts (rowSq x b) (rowSq (shapeCast ⟨2, ![6400, 768]⟩ A h₁) (⟨c.val * 64 + a.val, hn⟩ : Fin 6400))
      (rowDot x (shapeCast ⟨2, ![6400, 768]⟩ A h₁) b (⟨c.val * 64 + a.val, hn⟩ : Fin 6400))
    = ofParts (rowSq x b) (∑ e : Fin 768, A (ix3 c a e) * A (ix3 c a e)) (∑ e : Fin 768, x (ix2 b e) * A (ix3 c a e))
  unfold rowSq rowDot
  simp only [hrow]

end Cert.PairDist

end
-- ==== Proof.RefIsDist.lean ====
/-
  The reference, read index by index, is the table of pairwise distances.

  At (b, c, a) the reference adds the sum of the squares of row b of x (its first reduction, broadcast along the two
  table axes) to the sum of the squares of row (c, a) of the anchors (its second reduction, broadcast along b), takes
  away twice the contraction of the two rows over the 768 columns, clamps at zero and takes the square root. Each
  reduction starts from the zero word, which adds nothing. That is `PairDist.table` term for term; no law of
  arithmetic beyond 0 + s = s is used.
-/
import proofs.«102079_j47132971106494_1_alg».proof.Proof.Gen.ReferenceIdeal.Read
import proofs.«102079_j47132971106494_1_alg».proof.Proof.Dist

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The first reduction, seen from the result's index (b, c, a) through its two broadcasts, sums over row b of x. -/
theorem idx_xsq (b : Fin 4096) (c : Fin 100) (a : Fin 64) (k : Fin 768) :
    idx_main_v1 (idx_main_v5 (idx_main_v7 (ix3 b c a))) k = ix2 b k :=
  funext fun d => Fin.ext (by match d with | ⟨0, _⟩ => rfl | ⟨1, _⟩ => rfl)

/-- The second reduction, seen from (b, c, a) through its two broadcasts, sums over row (c, a) of the anchors. -/
theorem idx_asq (b : Fin 4096) (c : Fin 100) (a : Fin 64) (k : Fin 768) :
    idx_main_v3 (idx_main_v6 (idx_main_v8 (ix3 b c a))) k = ix3 c a k :=
  funext fun d => Fin.ext (by match d with | ⟨0, _⟩ => rfl | ⟨1, _⟩ => rfl | ⟨2, _⟩ => rfl)

/-- The contraction's left factor at (b, c, a) and column k is x at (b, k) … -/
theorem idx_dotl (b : Fin 4096) (c : Fin 100) (a : Fin 64) (k : Fin 768) : lidx_main_v4 (ix3 b c a) k = ix2 b k :=
  funext fun d => Fin.ext (by match d with | ⟨0, _⟩ => rfl | ⟨1, _⟩ => rfl)

/-- … and its right factor the anchors at (c, a, k). -/
theorem idx_dotr (b : Fin 4096) (c : Fin 100) (a : Fin 64) (k : Fin 768) : ridx_main_v4 (ix3 b c a) k = ix3 c a k :=
  funext fun d => Fin.ext (by match d with | ⟨0, _⟩ => rfl | ⟨1, _⟩ => rfl | ⟨2, _⟩ => rfl)

/-- The reference's result is the table of pairwise distances of the rows of x from the rows of the anchors. -/
theorem val_eq_table (x : (⟨S4096x768, .f32⟩ : BufTy).Contents (Elt Ideal))
    (A : (⟨S100x64x768, .f32⟩ : BufTy).Contents (Elt Ideal)) :
    val_main_v15 (F := Ideal) x A = Cert.PairDist.table x A := by
  funext i
  obtain ⟨b, c, a, rfl⟩ : ∃ (b : Fin 4096) (c : Fin 100) (a : Fin 64), i = ix3 b c a := ⟨i 0, i 1, i 2, eq_ix3 i⟩
  show val_main_v15 (F := Ideal) x A (ix3 b c a)
    = Cert.PairDist.ofParts (Cert.PairDist.rowSq x b) (∑ e : Fin 768, A (ix3 c a e) * A (ix3 c a e))
        (∑ e : Fin 768, x (ix2 b e) * A (ix3 c a e))
  unfold Cert.PairDist.ofParts Cert.PairDist.rowSq
  rw [val_main_v15_apply, val_main_v14_apply, val_main_v12_apply, val_main_v9_apply, val_main_v7_apply,
    val_main_v5_apply, val_main_v1_apply, val_main_v8_apply, val_main_v6_apply, val_main_v3_apply,
    val_main_v11_apply, val_main_v10_apply, val_main_cst_1_apply, val_main_v4_apply, val_main_v13_apply,
    val_main_cst_2_apply, val_main_cst_apply, val_main_cst_0_apply]
  simp only [val_main_v0_apply, val_main_v2_apply, idx_xsq, idx_asq, idx_dotl, idx_dotr,
    Ideal.hostUnary_sqrt_def, Ideal.maximumf_def, Ideal.subf_def, Ideal.addf_def, Ideal.mulf_def, Ideal.ofBits_def,
    Ideal.ofBits_zero_f32, zero_add]

end Cert.ReferenceIdeal.RefValue

end
-- ==== Proof.LibKeepdims.lean ====
/-
  A column of row totals, read at an index.

  A sum along the rows of a matrix kept as a column ([a] listed as [a, 1]) and then spread along the other axis
  ([a, 1] to [a, b]) reads, at (p, c), the total of row p; turned on its side first ([a, 1] to [1, a], then spread to
  [b, a]) it reads, at (p, c), the total of row c. The three steps, each at a pair of coordinates: listing a vector as a
  column changes no position; transposing a column gives the row with the same entries; spreading a column along a new
  second axis repeats each entry along it.
-/
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.LibKeepdims

variable {α : Type}

/-- An `[a]` array listed as the column `[a, 1]` reads, at `(i, u)`, the operand at `i`: the row-major position of
    `(i, u)` is `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector's column form spread along a second axis: `[a]` to `[a, 1]` to `[a, b]` reads, at `(p, c)`, entry `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A vector's column form turned on its side and spread along a first axis: `[a]` to `[a, 1]` to `[1, a]` to `[b, a]`
    reads, at `(p, c)`, entry `c`. -/
theorem row_spread_apply {a b : ℕ} (x : (⟨1, ![a]⟩ : Shape).Idx → α) (hc : (⟨1, ![a]⟩ : Shape).ShapeCasts ⟨2, ![a, 1]⟩)
    (ht : (⟨2, ![a, 1]⟩ : Shape).Transposes [1, 0] ⟨2, ![1, a]⟩) (hb : (⟨2, ![1, a]⟩ : Shape).Broadcasts ⟨2, ![b, a]⟩)
    (p : Fin b) (c : Fin a) :
    broadcastTo ⟨2, ![b, a]⟩ (transpose ⟨2, ![1, a]⟩ [1, 0] (shapeCast ⟨2, ![a, 1]⟩ x hc) ht) hb (ix2 p c) = x (ix1 c) :=
  (broadcastTo_1b_ab_apply _ hb p c).trans ((transpose_ix2_apply _ ht (0 : Fin 1) c).trans (shapeCast_a_a1_apply x hc c 0))

end Cert.LibKeepdims

end
-- ==== Proof.Payload.lean ====
/-
  The kernel body's stored value, read at an index: on a tile of 1024 rows of x and 640 rows of the flattened anchors it
  is the tile's table of pairwise distances.

  The body squares each tile, totals the squares along the 768 columns (one vector of 1024 totals, one of 640), multiplies
  the two tiles as matrices contracting their column axes (the narrowing to bf16 is the identity on extended reals, and the
  product is accumulated into zero), and then at (p, q) takes √(max((‖x_p‖² + ‖a_q‖²) − 2·⟨x_p, a_q⟩, 0)): the x totals
  reach (p, q) as a column spread along q, the anchor totals as a column turned on its side and spread along p.
-/
import proofs.«102079_j47132971106494_1_alg».proof.Proof.Gen.KernelIdeal.Skeleton
import proofs.«102079_j47132971106494_1_alg».proof.Proof.Dist
import proofs.«102079_j47132971106494_1_alg».proof.Proof.LibKeepdims
import Idealize.ShloMosaic.PureOps.Ideal.Laws
import Idealize.ShloMosaic.Lib.ValueIdx

noncomputable section

open scoped BigOperators
open Idealize.ShloMosaic Idealize.ShloMosaic.ValueIdx

namespace Cert.KernelIdeal.Body

open Cert.KernelIdeal Cert.KernelIdeal.Gen

/-- The totals of the squares along the columns, at row `r`: the reduction over axis 1 inserts the column coordinate after
    the row's, so it runs over the entries (r, e) of the row. -/
theorem sumsq_apply {R : ℕ} (v : FVec Ideal ⟨2, ![R, 768]⟩ .f32) (hred : (⟨2, ![R, 768]⟩ : Shape).Reduces [1] ⟨1, ![R]⟩)
    (hφ : FKind.Formats .f32) (hacc : (0x00000000#32 : BitVec FTy.f32.bits) = FKind.add.neutral .f32 hφ) (r : Fin R) :
    multiReduction .add [1] ⟨1, ![R]⟩ (mulf v v) 0x00000000#32 hred hφ hacc (ix1 r) = Cert.PairDist.rowSq v r := by
  refine (Ideal.multiReduction_add_single (mulf v v) 0x00000000#32 hred hφ hacc (ix1 r)).trans ?_
  unfold Cert.PairDist.rowSq
  refine Finset.sum_congr rfl fun e _ => ?_
  have e1 : hred.lift (ix1 r) e = ix2 r e :=
    funext fun d => Fin.ext (by match d with | ⟨0, _⟩ => rfl | ⟨1, _⟩ => rfl)
  exact congrArg (fun z => v z * v z) e1

/-! The matrix product's index maps, axis by axis: the output's row is the left tile's row, its column the right tile's
    row, and the one contracted coordinate is the column of both. -/

theorem lhs_dot_0 (i : S1024x640.Idx) (q : dot_S1024x768_S640x768_S1024x640_1_1_0_0_n_n.contr.Idx) :
    (dot_S1024x768_S640x768_S1024x640_1_1_0_0_n_n.lhsIdx i q 0).val = (i 0).val := by
  unfold DotDims.lhsIdx
  rw [dif_neg (show ¬(0 : Fin S1024x768.rank) ∈ dot_S1024x768_S640x768_S1024x640_1_1_0_0_n_n.lhsBatch by decide), dif_pos (show (0 : Fin S1024x768.rank) ∈ dot_S1024x768_S640x768_S1024x640_1_1_0_0_n_n.lhsNonContracting by decide)]
  rfl
theorem lhs_dot_1 (i : S1024x640.Idx) (q : dot_S1024x768_S640x768_S1024x640_1_1_0_0_n_n.contr.Idx) :
    (dot_S1024x768_S640x768_S1024x640_1_1_0_0_n_n.lhsIdx i q 1).val = (q ⟨0, by decide⟩).val :=
  dot_S1024x768_S640x768_S1024x640_1_1_0_0_n_n.lhsIdx_val_of_single rfl i q
theorem rhs_dot_0 (i : S1024x640.Idx) (q : dot_S1024x768_S640x768_S1024x640_1_1_0_0_n_n.contr.Idx) :
    (dot_S1024x768_S640x768_S1024x640_1_1_0_0_n_n.rhsIdx i q 0).val = (i 1).val := by
  unfold DotDims.rhsIdx
  rw [dif_neg (show ¬(0 : Fin S640x768.rank) ∈ dot_S1024x768_S640x768_S1024x640_1_1_0_0_n_n.rhsBatch by decide), dif_pos (show (0 : Fin S640x768.rank) ∈ dot_S1024x768_S640x768_S1024x640_1_1_0_0_n_n.rhsNonContracting by decide)]
  rfl
theorem rhs_dot_1 (i : S1024x640.Idx) (q : dot_S1024x768_S640x768_S1024x640_1_1_0_0_n_n.contr.Idx) :
    (dot_S1024x768_S640x768_S1024x640_1_1_0_0_n_n.rhsIdx i q 1).val = (q ⟨0, by decide⟩).val :=
  dot_S1024x768_S640x768_S1024x640_1_1_0_0_n_n.rhsIdx_val_of_single rfl i q

/-- The product of the two tiles accumulated into zero, at (p, o): the sum over the columns of row `p` of the left tile
    times row `o` of the right tile. -/
theorem dot_apply {φ₁ φ₂ : FTy} (l : FVec Ideal S1024x768 φ₁) (r : FVec Ideal S640x768 φ₂) (p : Fin 1024) (o : Fin 640) :
    FloatOps.matmul dot_S1024x768_S640x768_S1024x640_1_1_0_0_n_n none l r (constant (F := Ideal) S1024x640 .f32 0x00000000#32) (ix2 p o)
      = ∑ k : Fin 768, l (ix2 p k) * r (ix2 o k) := by
  rw [Ideal.matmul_constant_zero_apply, ← Equiv.sum_comp (contrEquiv1 dot_S1024x768_S640x768_S1024x640_1_1_0_0_n_n 768 rfl rfl).symm]
  refine Finset.sum_congr rfl fun k _ => ?_
  have hk := contrEquiv1_symm_val dot_S1024x768_S640x768_S1024x640_1_1_0_0_n_n 768 rfl rfl k
  have el : dot_S1024x768_S640x768_S1024x640_1_1_0_0_n_n.lhsIdx (ix2 p o) ((contrEquiv1 dot_S1024x768_S640x768_S1024x640_1_1_0_0_n_n 768 rfl rfl).symm k) = ix2 p k := funext fun a => Fin.ext (by
    match a with
    | ⟨0, _⟩ => exact lhs_dot_0 _ _
    | ⟨1, _⟩ => exact (lhs_dot_1 _ _).trans hk)
  have er : dot_S1024x768_S640x768_S1024x640_1_1_0_0_n_n.rhsIdx (ix2 p o) ((contrEquiv1 dot_S1024x768_S640x768_S1024x640_1_1_0_0_n_n 768 rfl rfl).symm k) = ix2 o k := funext fun a => Fin.ext (by
    match a with
    | ⟨0, _⟩ => exact rhs_dot_0 _ _
    | ⟨1, _⟩ => exact (rhs_dot_1 _ _).trans hk)
  rw [el, er]

/-- THE STORED VALUE on a tile: the body's result at (p, q) is the distance of row `p` of the x tile from row `q` of the
    anchor tile. -/
theorem pay_eq_flat (x0 : Vec Ideal S1024x768 .f32) (x1 : Vec Ideal S640x768 .f32) :
    k0_pay1 (F := Ideal) x0 x1 = Cert.PairDist.flat x0 x1 := by
  funext j
  obtain ⟨p, q, rfl⟩ : ∃ (p : Fin 1024) (q : Fin 640), j = ix2 p q := ⟨j 0, j 1, eq_ix2 j⟩
  unfold k0_pay1
  dsimp only
  rw [shapeCast_self x1 shapeCasts_S640x768_S640x768]
  -- the x totals, a column spread along q
  have hX : ∀ (hφ : FKind.Formats .f32) (hacc : (0x00000000#32 : BitVec FTy.f32.bits) = FKind.add.neutral .f32 hφ), broadcastTo S1024x640 (shapeCast S1024x1 (multiReduction (F := Ideal) (φ := .f32) .add [1] S1024 (mulf (F := Ideal) (φ := .f32) x0 x0) 0x00000000#32
      reduces_S1024x768_S1024 hφ hacc) shapeCasts_S1024_S1024x1) broadcasts_S1024x1_S1024x640 (ix2 p q)
        = Cert.PairDist.rowSq x0 p := fun hφ hacc =>
    (Cert.LibKeepdims.column_spread_apply _ shapeCasts_S1024_S1024x1 broadcasts_S1024x1_S1024x640 p q).trans
      (sumsq_apply x0 reduces_S1024x768_S1024 hφ hacc p)
  -- the anchor totals, a column turned on its side and spread along p
  have hA : ∀ (hφ : FKind.Formats .f32) (hacc : (0x00000000#32 : BitVec FTy.f32.bits) = FKind.add.neutral .f32 hφ), broadcastTo S1024x640 (transpose S1x640 [1, 0] (shapeCast S640x1 (multiReduction (F := Ideal) (φ := .f32) .add [1] S640 (mulf (F := Ideal) (φ := .f32) x1 x1)
      0x00000000#32 reduces_S640x768_S640 hφ hacc) shapeCasts_S640_S640x1) transposes_S640x1_p1_0_S1x640)
      broadcasts_S1x640_S1024x640 (ix2 p q) = Cert.PairDist.rowSq x1 q := fun hφ hacc =>
    (Cert.LibKeepdims.row_spread_apply _ shapeCasts_S640_S640x1 transposes_S640x1_p1_0_S1x640 broadcasts_S1x640_S1024x640 p q).trans
      (sumsq_apply x1 reduces_S640x768_S640 hφ hacc q)
  -- the product of the narrowed tiles: narrowing changes no entry
  have hM : FloatOps.matmul dot_S1024x768_S640x768_S1024x640_1_1_0_0_n_n none (truncf (F := Ideal) (φ := .f32) .bf16 x0 bitsLt_bf16_f32) (truncf (F := Ideal) (φ := .f32) .bf16 x1 bitsLt_bf16_f32)
      (constant (F := Ideal) S1024x640 .f32 0x00000000#32) (ix2 p q) = Cert.PairDist.rowDot x0 x1 p q :=
    dot_apply _ _ p q
  show _ = Cert.PairDist.ofParts (Cert.PairDist.rowSq x0 p) (Cert.PairDist.rowSq x1 q) (Cert.PairDist.rowDot x0 x1 p q)
  unfold Cert.PairDist.ofParts
  exact congrArg Ideal.sqrt (congrArg (fun z => max z (Ideal.ofBits .f32 0x00000000#32))
    (congr (congrArg HSub.hSub (congr (congrArg HAdd.hAdd (hX _ _)) (hA _ _)))
      (congrArg (fun z => Ideal.ofBits .f32 0x40000000#32 * z) hM)))

end Cert.KernelIdeal.Body

end
-- ==== Proof.KernelValue.lean ====
/-
  The idealized kernel's result array.

  Each grid point (s, u) of the 4 × 10 grid loads rows 1024·s … of x and rows 640·u … of the flattened anchors (all 768
  columns of both) and writes the 1024 × 640 tile of distances at block (s, u) of the [4096, 6400] output. The tiles are
  restrictions of one function — all rows of x against all rows of the flattened anchors — and the 40 blocks cover the
  output, so the output array ends as that function. The program flattens the anchors [100, 64, 768] to [6400, 768] before
  the launch and lists the output as [4096, 100, 64] after it; both are row-major re-listings, and what comes out is the
  table of distances of every row of x from every row (c, a) of the anchors.
-/
import proofs.«102079_j47132971106494_1_alg».proof.Proof.Gen.KernelIdeal.Frame
import proofs.«102079_j47132971106494_1_alg».proof.Proof.Payload
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem Idealize.ShloMosaic.ValueIdx

namespace Cert.KernelIdeal.Whole

open Cert.KernelIdeal Cert.KernelIdeal.Gen

variable (m : (ℓ : Loc nD τ sig) → Buf (Elt Ideal) ℓ) (ρ : Dev nD → PrngReg)

theorem origin : (![0, 0] : Fin 2 → Nat) = fun _ => 0 := funext fun a => by fin_cases a <;> rfl

/-- Over the grid: the x tile sits on the output tile's row block and the anchor tile on the output tile's column block,
    and both take all 768 columns. -/
theorem tiles_move_together : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0 :=
  (by decide +kernel : ∀ t : Fin grid0.N, _)

/-- Every one of the 4 × 10 output blocks is some grid point's. -/
theorem every_block_met : ∀ (q0 : Fin 4) (q1 : Fin 10), ∃ t : Fin cfg0.N, win0_2.index t = ![q0.val, q1.val] :=
  (by decide +kernel : ∀ (q0 : Fin 4) (q1 : Fin 10), ∃ t : Fin grid0.N, win0_2.index t = ![q0.val, q1.val])

/-- What point `t` writes back is block `t` of the distances of all rows of x from all rows of the flattened anchors: row
    `j 0` of the x tile is the row of x under the output entry, row `j 1` of the anchor tile the flattened anchors' row under
    it. -/
theorem flushed_eq (c : Dev nD) (t : Fin cfg0.N) :
    (dats m 0 c).flushed 2 t
      = ((cfg0.win 2).blk t).view.read (Elt Ideal) (Cert.PairDist.flat (R := 4096) (N := 6400) (V m c main_arg0) (V m c main_v0)) := by
  show (cfg0.win 2).cut (grid0.coords t) ((dats m 0 c).after 2 t) = _
  rw [after0_2]
  unfold out0_2
  rw [View.canon_unit_zero origin]
  simp only [View.ld_unit_zero (S := S1024x768) origin, View.ld_unit_zero (S := S640x768) origin]
  rw [Cert.KernelIdeal.Body.pay_eq_flat]
  obtain ⟨e0, e1, e2, e3⟩ := tiles_move_together t
  funext j
  show Cert.PairDist.flat (R := 1024) (N := 640) (iblk m c 0 t) (iblk m c 1 t) j
    = Cert.PairDist.flat (R := 4096) (N := 6400) (V m c main_arg0) (V m c main_v0) (((cfg0.win 2).blk t).view.emb j)
  refine Cert.PairDist.flat_of_rows (R := 4096) (N := 6400) (r := 1024) (n := 640) _ _ _ _ j _ (fun e => ?_) (fun e => ?_)
  · show V m c main_arg0 (((cfg0.win 0).blk t).view.emb (ix2 (j 0) e))
      = V m c main_arg0 (ix2 ((((cfg0.win 2).blk t).view.emb j) 0) e)
    refine congrArg (V m c main_arg0) (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 768 + 1 * e.val = e.val
      omega
  · show V m c main_v0 (((cfg0.win 1).blk t).view.emb (ix2 (j 1) e))
      = V m c main_v0 (ix2 ((((cfg0.win 2).blk t).view.emb j) 1) e)
    refine congrArg (V m c main_v0) (funext fun a => Fin.ext ?_)
    match a with
    | ⟨0, _⟩ =>
      show win0_1.index t (0 : Fin 2) * 640 + 1 * (j 1).val = win0_2.index t (1 : Fin 2) * 640 + 1 * (j 1).val
      omega
    | ⟨1, _⟩ =>
      show win0_1.index t (1 : Fin 2) * 768 + 1 * e.val = e.val
      omega

/-- An index of the output is in point `t`'s block iff each coordinate is in the block's range on its axis. -/
theorem mem_blk (t : Fin cfg0.N) (i : S4096x6400.Idx) :
    i ∈ ((cfg0.win 2).blk t).view.set ↔ ∀ a : Fin 2, win0_2.index t a * S1024x640.size a ≤ (i a).val
      ∧ (i a).val < win0_2.index t a * S1024x640.size a + S1024x640.size a := by
  show i ∈ ((View.whole main_v1).slice (win0_2.rect t)).set ↔ _
  rw [View.set_slice_whole, Rect.mem_set_unit]
  exact Iff.rfl

/-- Every entry (b, n) of the output is written: by the point whose block is (b / 1024, n / 640). -/
theorem cover (i : S4096x6400.Idx) : ∃ t : Fin cfg0.N, (cfg0.win 2).flush t = true ∧ i ∈ ((cfg0.win 2).blk t).view.set := by
  have hi0 : (i 0).val < 4096 := (i 0).isLt
  have hi1 : (i 1).val < 6400 := (i 1).isLt
  obtain ⟨t, ht⟩ := every_block_met ⟨(i 0).val / 1024, by omega⟩ ⟨(i 1).val / 640, by omega⟩
  have q0 : win0_2.index t (0 : Fin 2) = (i 0).val / 1024 := congrFun ht 0
  have q1 : win0_2.index t (1 : Fin 2) = (i 1).val / 640 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 640 ≤ (i 1).val ∧ (i 1).val < win0_2.index t (1 : Fin 2) * 640 + 640
    omega

/-- The output array after the run: the distances of all rows of x from all rows of the flattened anchors. -/
theorem array_after (c : Dev nD) :
    (dats m 0 c).arrAt 2 cfg0.N = Cert.PairDist.flat (R := 4096) (N := 6400) (V m c main_arg0) (V m c main_v0) :=
  (dats m 0 c).arrAt_eq_of_cover 2 _ (fun t _ => flushed_eq m c t) cover

/-- The anchors as the launch finds them: the argument re-listed as 6400 rows. -/
theorem flat_anchors (c : Dev nD) : (V m c main_v0 : S6400x768.Idx → EReal)
    = shapeCast S6400x768 (m ((c : Thread nD τ).loc main_arg1)) shapeCasts_S100x64x768_S6400x768 := by
  show StableHlo.after hostOps0 (fun b => m (c, b)) (Proc.devRef .tc main_v0) = _
  after_results
  rfl

/-- The result buffer after the host line that follows the launch: the output array re-listed as [4096, 100, 64], which is
    the table of distances of the rows of x from the rows (c, a) of the anchors. -/
theorem result_after (c : Dev nD) :
    Pipeline.afterTail₀ cfgs (dats m) 0 (V0 m) [hostOps1] c main_v2
      = Cert.PairDist.table (m ((c : Thread nD τ).loc main_arg0)) (m ((c : Thread nD τ).loc main_arg1)) := by
  have hW : Pipeline.withArrays (cfgs 0).spec c (V0 m c) (fun w => (dats m 0 c).arrAt w (cfgs 0).N) (Proc.devRef .tc main_v1)
      = Cert.PairDist.flat (R := 4096) (N := 6400) (m ((c : Thread nD τ).loc main_arg0))
          (shapeCast S6400x768 (m ((c : Thread nD τ).loc main_arg1)) shapeCasts_S100x64x768_S6400x768) :=
    ((Pipeline.withArrays_arr spec0 launch0.win.arr_inj c _ _ 2).trans (array_after m c)).trans
      (congrArg₂ (Cert.PairDist.flat (R := 4096) (N := 6400)) (V_main_arg0 m c) (flat_anchors m c))
  unfold Pipeline.afterTail₀
  show StableHlo.after hostOps1 _ (Proc.devRef .tc main_v2) = _
  after_results
  show shapeCast S4096x100x64 (Pipeline.withArrays (cfgs 0).spec c (V0 m c) (fun w => (dats m 0 c).arrAt w (cfgs 0).N)
      (Proc.devRef .tc main_v1)) shapeCasts_S4096x6400_S4096x100x64 = _
  rw [hW]
  exact Cert.PairDist.shapeCast_flat_shapeCast _ _ _ _

/-- THE RUN, READ: every weakly fair execution of the idealized kernel's program ends with the result buffer at the table
    of pairwise distances of its two arguments, and the arguments as they were. -/
theorem run : θ_run defs (onTc (τ := τ) (main (F := Ideal))) ⟨m, fun _ => 0, ρ⟩ fun r => ∀ c : Dev nD,
      r.2.mem ((c : Thread nD τ).loc main_v2)
        = Cert.PairDist.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (result_after m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Whole

end
-- ==== Proof.lean ====
/-
  Pairwise L2 distances, tiled, against the plain formula.

  Both programs compute, for every row x_b of x (4096 rows of 768 entries) and every row A_{c,a} of the anchors (a 100 × 64
  table of rows of 768 entries), the number √(max((‖x_b‖² + ‖A_{c,a}‖²) − 2·⟨x_b, A_{c,a}⟩, 0)). The reference does so on
  whole arrays. The kernel flattens the table to 6400 rows, cuts the [4096, 6400] result into 4 × 10 tiles of 1024 × 640,
  computes each tile from the 1024 rows of x and the 640 rows of the anchors under it (the squared norms again per tile,
  the inner products as one matrix product of the two tiles narrowed to bf16), and lists the result as [4096, 100, 64].

  On the extended reals the narrowing is the identity, a tile's three sums are the whole arrays' sums over the same entries,
  the tiles cover the result, and the two re-listings are row-major: so both programs end with one and the same function
  of their arguments (`PairDist.table`), with the same association of the sum and the difference and the same constants
  2 and 0. No law of arithmetic is needed beyond 0 + s = s for the reference's reductions, so the precondition is not used.
  The idealization rewrote nothing, so the fourth conjunct is trivial; the three frames are the generated frame runs (the
  reference's is its run with the result dropped).
-/
import proofs.«102079_j47132971106494_1_alg».proof.Defs
import proofs.«102079_j47132971106494_1_alg».proof.Proof.Gen.Kernel
import proofs.«102079_j47132971106494_1_alg».proof.Proof.Gen.Kernel.Skeleton
import proofs.«102079_j47132971106494_1_alg».proof.Proof.Gen.Kernel.Launch
import proofs.«102079_j47132971106494_1_alg».proof.Proof.Gen.Kernel.Points
import proofs.«102079_j47132971106494_1_alg».proof.Proof.Gen.Kernel.Frame
import proofs.«102079_j47132971106494_1_alg».proof.Proof.Gen.KernelIdeal
import proofs.«102079_j47132971106494_1_alg».proof.Proof.Gen.KernelIdeal.Skeleton
import proofs.«102079_j47132971106494_1_alg».proof.Proof.Gen.KernelIdeal.Launch
import proofs.«102079_j47132971106494_1_alg».proof.Proof.Gen.KernelIdeal.Points
import proofs.«102079_j47132971106494_1_alg».proof.Proof.Gen.KernelIdeal.Frame
import proofs.«102079_j47132971106494_1_alg».proof.Proof.Gen.ReferenceIdeal
import proofs.«102079_j47132971106494_1_alg».proof.Proof.Gen.Pre_finite_inputs
import proofs.«102079_j47132971106494_1_alg».proof.Proof.Gen.ReferenceIdeal.Run
import proofs.«102079_j47132971106494_1_alg».proof.Proof.Gen.ReferenceIdeal.Read
import proofs.«102079_j47132971106494_1_alg».proof.Proof.RefIsDist
import proofs.«102079_j47132971106494_1_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on x and the anchors, both idealized programs end with the table of pairwise distances of
    those arguments: the kernel by its tiles (`Whole.run`), the reference read index by index (`RefValue.val_eq_table`). -/
theorem algebraic : Cert.algebraic_KernelIdeal_ReferenceIdeal := by
  intro m ρ m' ρ' _ hagree
  refine ⟨fun c => Cert.PairDist.table
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.val_eq_table, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
